-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_v11) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5) = v0 c
          ∧ r.2.mem ((c.tc : Thread Cert.ReferenceIdeal.nD Cert.ReferenceIdeal.τ).loc Cert.ReferenceIdeal.main_v11) = v1 c
          ∧ r.2.mem ((c.tc : Thread Cert.ReferenceIdeal.nD Cert.ReferenceIdeal.τ).loc Cert.ReferenceIdeal.main_v17) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x4096x1024 : Shape := ⟨3, ![4, 4096, 1024]⟩
abbrev S1024x1024 : Shape := ⟨2, ![1024, 1024]⟩
abbrev S1024 : Shape := ⟨1, ![1024]⟩
abbrev S_ : Shape := ⟨0, ![]⟩

class Facts : Prop where
  bcast_S_S4x4096x1024 : S_.BroadcastsInDim S4x4096x1024 (![] : Fin 0 → Fin S4x4096x1024.rank)
  reducesTo_S4x4096x1024_S_d0_1_2 : S4x4096x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S4x4096x1024 .f32) (main_arg1 : FVec F S4x4096x1024 .f32) (main_arg2 : FVec F S4x4096x1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S4x4096x1024 .f32 := Host.absf main_arg0
  let main_cst : FVec F S_ .f32 := constant S_ .f32 0x7F800000#32
  let main_v1 : FVec F S4x4096x1024 .f32 := broadcastInDim S4x4096x1024 ![] bcast_S_S4x4096x1024 main_cst
  let main_v2 : IVec S4x4096x1024 1 := cmpf .olt main_v0 main_v1
  let main_c : IVec S_ 1 := constantI S_ 1 1#1
  let main_v3 : IVec S_ 1 := (fun x v => Host.reduce IntOp.andi x v reducesTo_S4x4096x1024_S_d0_1_2 h_S_) main_v2 main_c
  let main_v4 : FVec F S4x4096x1024 .f32 := Host.absf main_arg1
  let main_cst_0 : FVec F S_ .f32 := constant S_ .f32 0x7F800000#32
  let main_v5 : FVec F S4x4096x1024 .f32 := broadcastInDim S4x4096x1024 ![] bcast_S_S4x4096x1024 main_cst_0
  let main_v6 : IVec S4x4096x1024 1 := cmpf .olt main_v4 main_v5
  let main_c_1 : IVec S_ 1 := constantI S_ 1 1#1
  let main_v7 : IVec S_ 1 := (fun x v => Host.reduce IntOp.andi x v reducesTo_S4x4096x1024_S_d0_1_2 h_S_) main_v6 main_c_1
  let main_v8 : IVec S_ 1 := andi main_v3 main_v7
  let main_v9 : FVec F S4x4096x1024 .f32 := Host.absf main_arg2
  let main_cst_2 : FVec F S_ .f32 := constant S_ .f32 0x7F800000#32
  let main_v10 : FVec F S4x4096x1024 .f32 := broadcastInDim S4x4096x1024 ![] bcast_S_S4x4096x1024 main_cst_2
  let main_v11 : IVec S4x4096x1024 1 := cmpf .olt main_v9 main_v10
  let main_c_3 : IVec S_ 1 := constantI S_ 1 1#1
  let main_v12 : IVec S_ 1 := (fun x v => Host.reduce IntOp.andi x v reducesTo_S4x4096x1024_S_d0_1_2 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S4x4096x1024 : Shape := ⟨3, ![4, 4096, 1024]⟩
abbrev S1024x1024 : Shape := ⟨2, ![1024, 1024]⟩
abbrev S1024 : Shape := ⟨1, ![1024]⟩
abbrev S1x1024 : Shape := ⟨2, ![1, 1024]⟩
abbrev S1x1024x1024 : Shape := ⟨3, ![1, 1024, 1024]⟩
abbrev S4x4096x16x64 : Shape := ⟨4, ![4, 4096, 16, 64]⟩
abbrev S4x16x4096x64 : Shape := ⟨4, ![4, 16, 4096, 64]⟩

abbrev nBuf : Space → Nat
  | .hbm => 21
  | .vmem => 18
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S1x1024, .f32⟩
  | .hbm, ⟨10, _⟩ => ⟨S4x4096x1024, .f32⟩
  | .hbm, ⟨11, _⟩ => ⟨S1x1024, .f32⟩
  | .hbm, ⟨12, _⟩ => ⟨S4x4096x1024, .f32⟩
  | .hbm, ⟨13, _⟩ => ⟨S1x1024, .f32⟩
  | .hbm, ⟨14, _⟩ => ⟨S4x4096x1024, .f32⟩
  | .hbm, ⟨15, _⟩ => ⟨S4x4096x16x64, .f32⟩
  | .hbm, ⟨16, _⟩ => ⟨S4x16x4096x64, .f32⟩
  | .hbm, ⟨17, _⟩ => ⟨S4x4096x16x64, .f32⟩
  | .hbm, ⟨18, _⟩ => ⟨S4x16x4096x64, .f32⟩
  | .hbm, ⟨19, _⟩ => ⟨S4x4096x16x64, .f32⟩
  | .hbm, ⟨20, _⟩ => ⟨S4x16x4096x64, .f32⟩
  | .local _ .vmem, ⟨0, _⟩ => ⟨S1x1024x1024, .f32⟩
  | .local _ .vmem, ⟨1, _⟩ => ⟨S1x1024x1024, .f32⟩
  | .local _ .vmem, ⟨2, _⟩ => ⟨S1024x1024, .f32⟩
  | .local _ .vmem, ⟨3, _⟩ => ⟨S1x1024, .f32⟩
  | .local _ .vmem, ⟨4, _⟩ => ⟨S1x1024x1024, .f32⟩
  | .local _ .vmem, ⟨5, _⟩ => ⟨S1x1024x1024, .f32⟩
  | .local _ .vmem, ⟨6, _⟩ => ⟨S1x1024x1024, .f32⟩
  | .local _ .vmem, ⟨7, _⟩ => ⟨S1x1024x1024, .f32⟩
  | .local _ .vmem, ⟨8, _⟩ => ⟨S1024x1024, .f32⟩
  | .local _ .vmem, ⟨9, _⟩ => ⟨S1x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1x1024x1024, .f32⟩
  | .local _ .vmem, ⟨13, _⟩ => ⟨S1x1024x1024, .f32⟩
  | .local _ .vmem, ⟨14, _⟩ => ⟨S1024x1024, .f32⟩
  | .local _ .vmem, ⟨15, _⟩ => ⟨S1x1024, .f32⟩
  | .local _ .vmem, ⟨16, _⟩ => ⟨S1x1024x1024, .f32⟩
  | .local _ .vmem, ⟨17, _⟩ => ⟨S1x1024x1024, .f32⟩
  | _, _ => ⟨S4x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg2_0 : Ref sig .tc := ⟨.vmem, 15, rfl⟩
abbrev cc2_stg3_0 : Ref sig .tc := ⟨.vmem, 16, rfl⟩
abbrev cc2_stg3_1 : Ref sig .tc := ⟨.vmem, 17, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem3_0 : DmaSem sig := 10
abbrev cc1_sem3_1 : DmaSem sig := 11
abbrev cc2_sem0_0 : DmaSem sig := 12
abbrev cc2_sem0_1 : DmaSem sig := 13
abbrev cc2_sem1_0 : DmaSem sig := 14
abbrev cc2_sem2_0 : DmaSem sig := 15
abbrev cc2_sem3_0 : DmaSem sig := 16
abbrev cc2_sem3_1 : DmaSem sig := 17

abbrev nD : Nat := 1
abbrev τ : Topo := Topo.v7x

variable {F : FTy → Type} [FloatOps F]

abbrev grid0 : Pipeline.Grid := ⟨2, ![4, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 1 → Memref sig .tc .vmem S1024x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S1x1024x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev grid1 : Pipeline.Grid := ⟨2, ![4, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage1_0 : Fin 2 → Memref sig .tc .vmem S1x1024x1024 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 1 → Memref sig .tc .vmem S1024x1024 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false]

abbrev stage1_2 : Fin 1 → Memref sig .tc .vmem S1x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

abbrev grid2 : Pipeline.Grid := ⟨2, ![4, 4], ![false, false]⟩

def cc2_transform_0 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage2_0 : Fin 2 → Memref sig .tc .vmem S1x1024x1024 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, true]

abbrev stage2_1 : Fin 1 → Memref sig .tc .vmem S1024x1024 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false, false]

abbrev stage2_2 : Fin 1 → Memref sig .tc .vmem S1x1024 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

abbrev stage2_3 : Fin 2 → Memref sig .tc .vmem S1x1024x1024 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true, true]

class Facts₀ : Prop where
  shapeCasts_S1024_S1x1024 : S1024.ShapeCasts S1x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  bitsLt_bf16_f32 : FTy.bits .bf16 < FTy.bits .f32
  inb_S1024x1024_S1024x1024_0_0 : ∀ a, (![0, 0] : Fin 2 → Nat) a + S1024x1024.size a ≤ S1024x1024.size a
  h_S1024x1024 : 0 < S1024x1024.numel
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S1024x1024 : S1x1024.Broadcasts S1024x1024
  shapeCasts_S1024x1024_S1x1024x1024 : S1024x1024.ShapeCasts S1x1024x1024
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x1024.size a ≤ S4x4096x1024.size a
  hwx0_0 : ∀ i : grid0.Coords, EltTy.bits .f32 = 32 ∨ (Rect.block (s := S4x4096x1024) S1x1024x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .f32 = 32 ∨ (Rect.block (s := S1024x1024) S1024x1024.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S1x1024x1024.size a ≤ S4x4096x1024.size a
  hwx0_3 : ∀ i : grid0.Coords, EltTy.bits .f32 = 32 ∨ (Rect.block (s := S4x4096x1024) S1x1024x1024.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x1024.size a ≤ S4x4096x1024.size a
  hwx1_0 : ∀ i : grid1.Coords, EltTy.bits .f32 = 32 ∨ (Rect.block (s := S4x4096x1024) S1x1024x1024.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1024x1024.size a ≤ S1024x1024.size a
  hwx1_1 : ∀ i : grid1.Coords, EltTy.bits .f32 = 32 ∨ (Rect.block (s := S1024x1024) S1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1024.size a ≤ S1x1024.size a
  hwx1_2 : ∀ i : grid1.Coords, EltTy.bits .f32 = 32 ∨ (Rect.block (s := S1x1024) S1x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S4x4096x1024.size a
  hwx1_3 : ∀ i : grid1.Coords, EltTy.bits .f32 = 32 ∨ (Rect.block (s := S4x4096x1024) S1x1024x1024.size (cc1_transform_3 i) (hinb1_3 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S1x1024x1024.size a ≤ S4x4096x1024.size a
  hwx2_0 : ∀ i : grid2.Coords, EltTy.bits .f32 = 32 ∨ (Rect.block (s := S4x4096x1024) S1x1024x1024.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1024x1024.size a ≤ S1024x1024.size a
  hwx2_1 : ∀ i : grid2.Coords, EltTy.bits .f32 = 32 ∨ (Rect.block (s := S1024x1024) S1024x1024.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1024.size a ≤ S1x1024.size a
  hwx2_2 : ∀ i : grid2.Coords, EltTy.bits .f32 = 32 ∨ (Rect.block (s := S1x1024) S1x1024.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S1x1024x1024.size a ≤ S4x4096x1024.size a
  hwx2_3 : ∀ i : grid2.Coords, EltTy.bits .f32 = 32 ∨ (Rect.block (s := S4x4096x1024) S1x1024x1024.size (cc2_transform_3 i) (hinb2_3 i)).WholeWords (EltTy.packing .f32)

variable [Facts₀]

def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg0) S1x1024x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S1x1024x1024.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_arg1) S1x1024x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S1024x1024.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v3) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev win2_0 : Pipeline.Window sig grid2 :=
  Pipeline.Window.ofSpec (Memref.whole main_arg2) S1x1024x1024.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg7) S1024x1024.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1024.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v5) S1x1024x1024.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S4x4096x1024 : Shape := ⟨3, ![4, 4096, 1024]⟩
abbrev S1024x1024 : Shape := ⟨2, ![1024, 1024]⟩
abbrev S1024 : Shape := ⟨1, ![1024]⟩
abbrev S1x1x1024 : Shape := ⟨3, ![1, 1, 1024]⟩
abbrev S4x4096x16x64 : Shape := ⟨4, ![4, 4096, 16, 64]⟩
abbrev S4x16x4096x64 : Shape := ⟨4, ![4, 16, 4096, 64]⟩

abbrev nBuf : Space → Nat
  | .hbm => 27
  | .vmem => 0
  | .smem => 0
  | _ => 0

abbrev bufTy : (tb : Table) → Fin (tcTables nBuf tb) → BufTy
  | .hbm, ⟨0, _⟩ => ⟨S4x4096x1024, .f32⟩
  | .hbm, ⟨1, _⟩ => ⟨S4x4096x1024, .f32⟩
  | .hbm, ⟨2, _⟩ => ⟨S4x4096x1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S4x4096x1024, .f32⟩
  | .hbm, ⟨10, _⟩ => ⟨S1x1x1024, .f32⟩
  | .hbm, ⟨11, _⟩ => ⟨S4x4096x1024, .f32⟩
  | .hbm, ⟨12, _⟩ => ⟨S4x4096x1024, .f32⟩
  | .hbm, ⟨13, _⟩ => ⟨S4x4096x16x64, .f32⟩
  | .hbm, ⟨14, _⟩ => ⟨S4x16x4096x64, .f32⟩
  | .hbm, ⟨15, _⟩ => ⟨S4x4096x1024, .f32⟩
  | .hbm, ⟨16, _⟩ => ⟨S1x1x1024, .f32⟩
  | .hbm, ⟨17, _⟩ => ⟨S4x4096x1024, .f32⟩
  | .hbm, ⟨18, _⟩ => ⟨S4x4096x1024, .f32⟩
  | .hbm, ⟨19, _⟩ => ⟨S4x4096x16x64, .f32⟩
  | .hbm, ⟨20, _⟩ => ⟨S4x16x4096x64, .f32⟩
  | .hbm, ⟨21, _⟩ => ⟨S4x4096x1024, .f32⟩
  | .hbm, ⟨22, _⟩ => ⟨S1x1x1024, .f32⟩
  | .hbm, ⟨23, _⟩ => ⟨S4x4096x1024, .f32⟩
  | .hbm, ⟨24, _⟩ => ⟨S4x4096x1024, .f32⟩
  | .hbm, ⟨25, _⟩ => ⟨S4x4096x16x64, .f32⟩
  | .hbm, ⟨26, _⟩ => ⟨S4x16x4096x64, .f32⟩
  | _, _ => ⟨S4x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S4x4096x1024_0_1_2 : S1x1x1024.BroadcastsInDim S4x4096x1024 (![0, 1, 2] : Fin 3 → Fin S4x4096x1024.rank)
  shapeCasts_S4x4096x1024_S4x4096x16x64 : S4x4096x1024.ShapeCasts S4x4096x16x64
  transposes_S4x4096x16x64_S4x16x4096x64_0_2_1_3 : S4x4096x16x64.Transposes [0, 2, 1, 3] S4x16x4096x64
  dot_S4x4096x1024_S1024x1024_S4x4096x1024_2_0_01_1_n_n_wf : DotDims.WF S4x4096x1024 S1024x1024 S4x4096x1024 [2] [0] [0, 1] [1] [] []

variable [Facts₀]

def dot_S4x4096x1024_S1024x1024_S4x4096x1024_2_0_01_1_n_n : DotDims S4x4096x1024 S1024x1024 S4x4096x1024 where
  lhsContracting := [2]
  rhsContracting := [0]
  lhsNonContracting := [0, 1]
  rhsNonContracting := [1]
  lhsBatch := []
  rhsBatch := []
  wf := dot_S4x4096x1024_S1024x1024_S4x4096x1024_2_0_01_1_n_n_wf

class Facts : Prop extends Facts₀ where

variable [Facts]
-- ==== Proof.Payload.lean ====
/-
  What one run of the kernel body stores, read at an index, over the extended reals.

  The body takes its `[1, 1024, 1024]` block `x` of the input (one batch entry, 1024 sequence rows), the whole
  weight matrix `w` and the bias as a `[1, 1024]` row `b`; it drops the block's unit axis, multiplies the
  `[1024, 1024]` rows by `w` on the matrix unit into a zero accumulator, adds the bias row to every row and puts
  the unit axis back.  Changing the float format of the operands is the identity on extended reals and the zero
  accumulator adds nothing, so the stored element at `(0, s, e)` is
      (∑ k < 1024, x[0, s, k] · w[k, e]) + b[0, e].
  The three launches share this body text, so the second and third payloads are the first one.
-/
import proofs.«130889_j85753317032126_1_alg».proof.Proof.Gen.KernelIdeal.Skeleton
import Idealize.ShloMosaic.Lib.Pipeline.Value
import Idealize.ShloMosaic.Lib.ValueIdx
import Idealize.ShloMosaic.PureOps.Ideal.Laws

noncomputable section

namespace Cert.KernelIdeal.Body

open Cert.KernelIdeal Cert.KernelIdeal.Gen Idealize.ShloMosaic Idealize.ShloMosaic.ValueIdx

/-! ## The matrix product's operand indices: row of the left operand, column of the right, the contracted axis shared -/

theorem lhs_row (i : S1024x1024.Idx) (q : dot_S1024x1024_S1024x1024_S1024x1024_1_0_0_1_n_n.contr.Idx) :
    (dot_S1024x1024_S1024x1024_S1024x1024_1_0_0_1_n_n.lhsIdx i q 0).val = (i 0).val := by
  unfold DotDims.lhsIdx
  rw [dif_neg (show ¬(0 : Fin S1024x1024.rank) ∈ dot_S1024x1024_S1024x1024_S1024x1024_1_0_0_1_n_n.lhsBatch by decide), dif_pos (show (0 : Fin S1024x1024.rank) ∈ dot_S1024x1024_S1024x1024_S1024x1024_1_0_0_1_n_n.lhsNonContracting by decide)]
  rfl
theorem lhs_contr (i : S1024x1024.Idx) (q : dot_S1024x1024_S1024x1024_S1024x1024_1_0_0_1_n_n.contr.Idx) :
    (dot_S1024x1024_S1024x1024_S1024x1024_1_0_0_1_n_n.lhsIdx i q 1).val = (q ⟨0, by decide⟩).val :=
  dot_S1024x1024_S1024x1024_S1024x1024_1_0_0_1_n_n.lhsIdx_val_of_single rfl i q
theorem rhs_contr (i : S1024x1024.Idx) (q : dot_S1024x1024_S1024x1024_S1024x1024_1_0_0_1_n_n.contr.Idx) :
    (dot_S1024x1024_S1024x1024_S1024x1024_1_0_0_1_n_n.rhsIdx i q 0).val = (q ⟨0, by decide⟩).val :=
  dot_S1024x1024_S1024x1024_S1024x1024_1_0_0_1_n_n.rhsIdx_val_of_single rfl i q
theorem rhs_col (i : S1024x1024.Idx) (q : dot_S1024x1024_S1024x1024_S1024x1024_1_0_0_1_n_n.contr.Idx) :
    (dot_S1024x1024_S1024x1024_S1024x1024_1_0_0_1_n_n.rhsIdx i q 1).val = (i 1).val := by
  unfold DotDims.rhsIdx
  rw [dif_neg (show ¬(1 : Fin S1024x1024.rank) ∈ dot_S1024x1024_S1024x1024_S1024x1024_1_0_0_1_n_n.rhsBatch by decide), dif_pos (show (1 : Fin S1024x1024.rank) ∈ dot_S1024x1024_S1024x1024_S1024x1024_1_0_0_1_n_n.rhsNonContracting by decide)]
  rfl

/-- The matrix unit's product into a zero accumulator, at `(s, e)`: the sum over the shared axis. -/
theorem matmul_at (l r : FVec Ideal S1024x1024 .bf16) (s e : Fin 1024) :
    matmul dot_S1024x1024_S1024x1024_S1024x1024_1_0_0_1_n_n none l r (constant (F := Ideal) S1024x1024 .f32 0x00000000#32) (ix2 s e)
      = ∑ k : Fin 1024, l (ix2 s k) * r (ix2 k e) := by
  show FloatOps.matmul dot_S1024x1024_S1024x1024_S1024x1024_1_0_0_1_n_n none l r (constant (F := Ideal) S1024x1024 .f32 0x00000000#32) (ix2 s e) = _
  rw [Ideal.matmul_constant_zero_apply, ← Equiv.sum_comp (ValueIdx.contrEquiv1 dot_S1024x1024_S1024x1024_S1024x1024_1_0_0_1_n_n 1024 rfl rfl).symm]
  refine Finset.sum_congr rfl fun k _ => ?_
  have hk := ValueIdx.contrEquiv1_symm_val dot_S1024x1024_S1024x1024_S1024x1024_1_0_0_1_n_n 1024 rfl rfl k
  have el : dot_S1024x1024_S1024x1024_S1024x1024_1_0_0_1_n_n.lhsIdx (ix2 s e) ((ValueIdx.contrEquiv1 dot_S1024x1024_S1024x1024_S1024x1024_1_0_0_1_n_n 1024 rfl rfl).symm k) = ix2 s k := funext fun a => Fin.ext (by
    match a with
    | ⟨0, _⟩ => exact lhs_row _ _
    | ⟨1, _⟩ => exact (lhs_contr _ _).trans hk)
  have er : dot_S1024x1024_S1024x1024_S1024x1024_1_0_0_1_n_n.rhsIdx (ix2 s e) ((ValueIdx.contrEquiv1 dot_S1024x1024_S1024x1024_S1024x1024_1_0_0_1_n_n 1024 rfl rfl).symm k) = ix2 k e := funext fun a => Fin.ext (by
    match a with
    | ⟨0, _⟩ => exact (rhs_contr _ _).trans hk
    | ⟨1, _⟩ => exact rhs_col _ _)
  rw [el, er]

/-! ## The layout steps around the product -/

/-- Dropping the block's leading unit axis reads `(s, k)` at `(0, s, k)`. -/
theorem dropUnit_at (x : Vec Ideal S1x1024x1024 .f32) (s k : Fin 1024) :
    shapeCast S1024x1024 x shapeCasts_S1x1024x1024_S1024x1024 (ix2 s k) = x (ix3 (0 : Fin 1) s k) :=
  shapeCast_apply x shapeCasts_S1x1024x1024_S1024x1024 (ix2 s k) (ix3 (0 : Fin 1) s k)
    (by rewrite [Shape.rowMajor_val_three, Shape.rowMajor_val_two]; show ((0 : Nat) * 1024 + s.val) * 1024 + k.val = s.val * 1024 + k.val; omega)

/-- Putting the unit axis back reads `(a, s, e)` at `(s, e)`. -/
theorem addUnit_at (y : FVec Ideal S1024x1024 .f32) (a : Fin 1) (s e : Fin 1024) :
    shapeCast S1x1024x1024 y shapeCasts_S1024x1024_S1x1024x1024 (ix3 a s e) = y (ix2 s e) :=
  shapeCast_apply y shapeCasts_S1024x1024_S1x1024x1024 (ix3 a s e) (ix2 s e)
    (by rewrite [Shape.rowMajor_val_three, Shape.rowMajor_val_two]; have ha : a.val < 1 := a.isLt
        show s.val * 1024 + e.val = (a.val * 1024 + s.val) * 1024 + e.val; omega)

/-- The bias row spread over the 1024 rows reads `(s, e)` at `(0, e)`. -/
theorem biasRows_at (b : Vec Ideal S1x1024 .f32) (s e : Fin 1024) :
    broadcastTo S1024x1024 (shapeCast S1x1024 b shapeCasts_S1x1024_S1x1024) broadcasts_S1x1024_S1024x1024 (ix2 s e)
      = b (ix2 (0 : Fin 1) e) := by
  rw [shapeCast_self]
  exact broadcastTo_apply b broadcasts_S1x1024_S1024x1024 (ix2 s e) (ix2 (0 : Fin 1) e) (fun a => match a with
    | ⟨0, _⟩ => by show (0 : Nat) = if (1 : Nat) = 1 then 0 else s.val; rw [if_pos rfl]
    | ⟨1, _⟩ => by show e.val = if (1024 : Nat) = 1 then 0 else e.val; rw [if_neg (by decide)])

/-! ## The stored value at an index -/

/-- The first launch's payload at `(a, s, e)`: row `s` of the block against column `e` of the weights, plus the bias. -/
theorem pay0_at (x : Vec Ideal S1x1024x1024 .f32) (w : Vec Ideal S1024x1024 .f32) (b : Vec Ideal S1x1024 .f32)
    (a : Fin 1) (s e : Fin 1024) :
    k0_pay1 (F := Ideal) x w b (ix3 a s e)
      = (∑ k : Fin 1024, x (ix3 (0 : Fin 1) s k) * w (ix2 k e)) + b (ix2 (0 : Fin 1) e) := by
  unfold k0_pay1
  refine (addUnit_at _ a s e).trans ?_
  rw [addf_apply, matmul_at, biasRows_at]
  refine congrArg (· + b (ix2 (0 : Fin 1) e)) (Finset.sum_congr rfl fun k _ => ?_)
  rw [truncf_apply, truncf_apply, dropUnit_at]

/-- The second and third launches run the same body text, so their payloads read the same. -/
theorem pay1_at (x : Vec Ideal S1x1024x1024 .f32) (w : Vec Ideal S1024x1024 .f32) (b : Vec Ideal S1x1024 .f32)
    (a : Fin 1) (s e : Fin 1024) :
    k1_pay1 (F := Ideal) x w b (ix3 a s e)
      = (∑ k : Fin 1024, x (ix3 (0 : Fin 1) s k) * w (ix2 k e)) + b (ix2 (0 : Fin 1) e) :=
  pay0_at x w b a s e
theorem pay2_at (x : Vec Ideal S1x1024x1024 .f32) (w : Vec Ideal S1024x1024 .f32) (b : Vec Ideal S1x1024 .f32)
    (a : Fin 1) (s e : Fin 1024) :
    k2_pay1 (F := Ideal) x w b (ix3 a s e)
      = (∑ k : Fin 1024, x (ix3 (0 : Fin 1) s k) * w (ix2 k e)) + b (ix2 (0 : Fin 1) e) :=
  pay0_at x w b a s e

end Cert.KernelIdeal.Body

end
-- ==== Proof.Spec.lean ====
/-
  The mathematics of one projection with its head split, stated over plain arrays of extended reals.

  For an input `x : [4, 4096, 1024]`, a weight matrix `w : [1024, 1024]` and a bias row `β` of length 1024, the
  projection is the array `y : [4, 4096, 1024]` with
      y[b, s, e] = (∑ k < 1024, x[b, s, k] · w[k, e]) + β[e].
  The head split views `y` as `[4, 4096, 16, 64]` (the last axis cut into 16 heads of 64 features, which keeps the
  row-major position) and swaps the sequence axis with the head axis: `[4, 16, 4096, 64]`.  Both programs finish
  with exactly this view and swap, so the split is carried as one function `heads` that is never opened: the two
  sides agree as soon as they agree on `y`.
-/
import Idealize.ShloMosaic.PureOps.Ideal
import Idealize.ShloMosaic.Lib.ValueIdx

noncomputable section

namespace Cert.Spec

open Idealize.ShloMosaic Idealize.ShloMosaic.ValueIdx

/-- The input and result shape of a projection, `[4, 4096, 1024]`. -/
abbrev SX : Shape := ⟨3, ![4, 4096, 1024]⟩
/-- The weight shape, `[1024, 1024]`. -/
abbrev SW : Shape := ⟨2, ![1024, 1024]⟩
/-- The projection viewed by heads, `[4, 4096, 16, 64]`. -/
abbrev SH : Shape := ⟨4, ![4, 4096, 16, 64]⟩
/-- The heads moved in front of the sequence axis, `[4, 16, 4096, 64]`. -/
abbrev ST : Shape := ⟨4, ![4, 16, 4096, 64]⟩

/-- `proj x w β` at `(b, s, e)`: the row `x[b, s, ·]` against the column `w[·, e]`, plus the bias `β[e]`. -/
def proj (x : SX.Idx → EReal) (w : SW.Idx → EReal) (β : Fin 1024 → EReal) : SX.Idx → EReal := fun i =>
  (∑ k : Fin 1024, x (ix3 ⟨(i 0).val, (i 0).isLt⟩ ⟨(i 1).val, (i 1).isLt⟩ k) * w (ix2 k ⟨(i 2).val, (i 2).isLt⟩))
    + β ⟨(i 2).val, (i 2).isLt⟩

/-- The head split: the `[4, 4096, 1024]` array viewed as `[4, 4096, 16, 64]`, then axes 1 and 2 swapped. -/
def heads (h₁ : SX.ShapeCasts SH) (h₂ : SH.Transposes [0, 2, 1, 3] ST) (y : SX.Idx → EReal) : ST.Idx → EReal :=
  transpose ST [0, 2, 1, 3] (shapeCast SH y h₁) h₂

end Cert.Spec

end
-- ==== Proof.Region0.lean ====
/-
  The first launch, from blocks to the whole array.

  The launch walks a 4 × 4 grid: point `(b, s)` takes rows `1024·s … 1024·s + 1023` of batch entry `b` of the input
  as its block, always the whole weight matrix and the whole bias row, and writes the same rows of batch entry `b` of
  the result.  What a point writes back is therefore the restriction to its block of ONE function of the arrays the
  launch finds: the projection `Spec.proj`.  The sixteen blocks tile the result array (the point that covers row
  `(b, r)` is `(b, r / 1024)`), so after the launch the result array is that function.
-/
import proofs.«130889_j85753317032126_1_alg».proof.Proof.Gen.KernelIdeal.Frame
import proofs.«130889_j85753317032126_1_alg».proof.Proof.Payload
import proofs.«130889_j85753317032126_1_alg».proof.Proof.Spec

set_option maxRecDepth 16384

noncomputable section

namespace Cert.KernelIdeal.Region0

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The input, the weights and the bias row as the launch finds them. -/
abbrev xarr (c : Dev nD) : Vec Ideal S4x4096x1024 .f32 := V c main_arg0
abbrev warr (c : Dev nD) : Vec Ideal S1024x1024 .f32 := V c main_arg3
abbrev barr (c : Dev nD) : Vec Ideal S1x1024 .f32 := V c main_v0
/-- The three input blocks of point `t`. -/
abbrev xblk (c : Dev nD) (t : Fin cfg0.N) : Vec Ideal S1x1024x1024 .f32 := iblk0 V c 0 t
abbrev wblk (c : Dev nD) (t : Fin cfg0.N) : Vec Ideal S1024x1024 .f32 := iblk0 V c 1 t
abbrev bblk (c : Dev nD) (t : Fin cfg0.N) : Vec Ideal S1x1024 .f32 := iblk0 V c 2 t

/-- What the result array holds after the launch: the projection of the arrays it found. -/
def target (c : Dev nD) : Vec Ideal S4x4096x1024 .f32 :=
  Spec.proj (xarr V c) (warr V c) (fun e => barr V c (ix2 (0 : Fin 1) e))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input block moves with the output block on the batch and row axes and both sit at
    feature block 0; weights and bias stay at block (0, 0); the output's block indices stay below 4. -/
theorem idx_facts : ∀ t : Fin cfg0.N,
    win0_0.index t (0 : Fin 3) = win0_3.index t (0 : Fin 3) ∧ win0_0.index t (1 : Fin 3) = win0_3.index t (1 : Fin 3)
    ∧ win0_0.index t (2 : Fin 3) = 0 ∧ win0_3.index t (2 : Fin 3) = 0
    ∧ win0_1.index t (0 : Fin 2) = 0 ∧ win0_1.index t (1 : Fin 2) = 0
    ∧ win0_2.index t (0 : Fin 2) = 0 ∧ win0_2.index t (1 : Fin 2) = 0
    ∧ win0_3.index t (0 : Fin 3) ≤ 3 ∧ win0_3.index t (1 : Fin 3) ≤ 3 :=
  (by decide +kernel : ∀ t : Fin grid0.N, _)

/-- Every (batch, row block) pair is some point's output block. -/
theorem idx_onto : ∀ (q0 : Fin 4) (q1 : Fin 4), ∃ t : Fin cfg0.N, win0_3.index t = ![q0.val, q1.val, 0] :=
  (by decide +kernel : ∀ (q0 : Fin 4) (q1 : Fin 4), ∃ t : Fin grid0.N, win0_3.index t = ![q0.val, q1.val, 0])

/-! ## The input blocks read where the output block sits

An element of a block sits in its array at block index × block extent + the coordinate inside the block, axis by axis.
For the output element `(a, s, e)` of point `t` (array position `E`): row `s` of the input block is row `(E 0, E 1)` of
the input array, the weight block is the weight matrix, and the bias block is the bias row. -/

theorem x_read (c : Dev nD) (t : Fin cfg0.N) (a : Fin 1) (s e k : Fin 1024) :
    xblk V c t (ix3 (0 : Fin 1) s k)
      = xarr V c (ix3 ⟨(((cfg0.win 3).blk t).view.emb (ix3 a s e) 0).val, (((cfg0.win 3).blk t).view.emb (ix3 a s e) 0).isLt⟩
          ⟨(((cfg0.win 3).blk t).view.emb (ix3 a s e) 1).val, (((cfg0.win 3).blk t).view.emb (ix3 a s e) 1).isLt⟩ k) := by
  obtain ⟨e0, e1, e2, e3, -⟩ := idx_facts t
  show V c main_arg0 (((cfg0.win 0).blk t).view.emb (ix3 (0 : Fin 1) s k)) = V c main_arg0 _
  refine congrArg (V c main_arg0) (funext fun ax => Fin.ext ?_)
  match ax with
  | ⟨0, _⟩ => show win0_0.index t (0 : Fin 3) * 1 + 1 * (0 : Nat) = win0_3.index t (0 : Fin 3) * 1 + 1 * a.val; have ha : a.val < 1 := a.isLt; omega
  | ⟨1, _⟩ => show win0_0.index t (1 : Fin 3) * 1024 + 1 * s.val = win0_3.index t (1 : Fin 3) * 1024 + 1 * s.val; omega
  | ⟨2, _⟩ => show win0_0.index t (2 : Fin 3) * 1024 + 1 * k.val = k.val; omega

theorem w_read (c : Dev nD) (t : Fin cfg0.N) (a : Fin 1) (s e k : Fin 1024) :
    wblk V c t (ix2 k e)
      = warr V c (ix2 k ⟨(((cfg0.win 3).blk t).view.emb (ix3 a s e) 2).val, (((cfg0.win 3).blk t).view.emb (ix3 a s e) 2).isLt⟩) := by
  obtain ⟨e0, e1, e2, e3, e4, e5, -⟩ := idx_facts t
  show V c main_arg3 (((cfg0.win 1).blk t).view.emb (ix2 k e)) = V c main_arg3 _
  refine congrArg (V c main_arg3) (funext fun ax => Fin.ext ?_)
  match ax with
  | ⟨0, _⟩ => show win0_1.index t (0 : Fin 2) * 1024 + 1 * k.val = k.val; omega
  | ⟨1, _⟩ => show win0_1.index t (1 : Fin 2) * 1024 + 1 * e.val = win0_3.index t (2 : Fin 3) * 1024 + 1 * e.val; omega

theorem b_read (c : Dev nD) (t : Fin cfg0.N) (a : Fin 1) (s e : Fin 1024) :
    bblk V c t (ix2 (0 : Fin 1) e)
      = barr V c (ix2 (0 : Fin 1) ⟨(((cfg0.win 3).blk t).view.emb (ix3 a s e) 2).val, (((cfg0.win 3).blk t).view.emb (ix3 a s e) 2).isLt⟩) := by
  obtain ⟨e0, e1, e2, e3, e4, e5, e6, e7, -⟩ := idx_facts t
  show V c main_v0 (((cfg0.win 2).blk t).view.emb (ix2 (0 : Fin 1) e)) = V c main_v0 _
  refine congrArg (V c main_v0) (funext fun ax => Fin.ext ?_)
  match ax with
  | ⟨0, _⟩ => show win0_2.index t (0 : Fin 2) * 1 + 1 * (0 : Nat) = 0; omega
  | ⟨1, _⟩ => show win0_2.index t (1 : Fin 2) * 1024 + 1 * e.val = win0_3.index t (2 : Fin 3) * 1024 + 1 * e.val; omega

/-- WHAT POINT `t` WRITES BACK is block `t` of the projection. -/
theorem flushed_eq (c : Dev nD) (t : Fin cfg0.N) :
    (dat0 V c).flushed 3 t = ((cfg0.win 3).blk t).view.read (Elt Ideal) (target V c) := by
  show (cfg0.win 3).cut (grid0.coords t) ((dat0 V c).after 3 t) = _
  rw [after0_3]
  unfold out0_3
  rw [View.canon_unit_zero hz3]
  simp only [View.ld_unit_zero (S := S1x1024x1024) hz3, View.ld_unit_zero (S := S1024x1024) hz2, View.ld_unit_zero (S := S1x1024) hz2]
  funext j
  obtain ⟨a, s, e, rfl⟩ : ∃ (a : Fin 1) (s e : Fin 1024), j = ix3 a s e := ⟨j 0, j 1, j 2, eq_ix3 j⟩
  show k0_pay1 (F := Ideal) (xblk V c t) (wblk V c t) (bblk V c t) (ix3 a s e) = target V c (((cfg0.win 3).blk t).view.emb (ix3 a s e))
  refine (Body.pay0_at (xblk V c t) (wblk V c t) (bblk V c t) a s e).trans ?_
  unfold target Spec.proj
  exact congrArg₂ (· + ·) (Finset.sum_congr rfl fun k _ => congrArg₂ (· * ·) (x_read V c t a s e k) (w_read V c t a s e k))
    (b_read V c t a s e)

/-! ## The blocks tile the result array -/

/-- An index of the result array is in point `t`'s block iff each coordinate is in the block's range on its axis. -/
theorem mem_blk (t : Fin cfg0.N) (i : S4x4096x1024.Idx) :
    i ∈ ((cfg0.win 3).blk t).view.set ↔ ∀ a : Fin 3, win0_3.index t a * S1x1024x1024.size a ≤ (i a).val ∧ (i a).val < win0_3.index t a * S1x1024x1024.size a + S1x1024x1024.size a := by
  show i ∈ ((View.whole main_v1).slice (win0_3.rect t)).set ↔ _
  rw [View.set_slice_whole, Rect.mem_set_unit]
  exact Iff.rfl

/-- Row `(b, r)` of the result is written by the point whose block is `(b, r / 1024)`. -/
theorem cover (i : S4x4096x1024.Idx) : ∃ t : Fin cfg0.N, (cfg0.win 3).flush t = true ∧ i ∈ ((cfg0.win 3).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win0_3.index t (0 : Fin 3) = (i 0).val := congrFun ht 0
  have q1 : win0_3.index t (1 : Fin 3) = (i 1).val / 1024 := congrFun ht 1
  have q2 : win0_3.index t (2 : Fin 3) = 0 := congrFun ht 2
  refine ⟨t, flush0_3 t, ?_⟩
  rw [mem_blk]
  intro a
  match a with
  | ⟨0, _⟩ => show win0_3.index t (0 : Fin 3) * 1 ≤ (i 0).val ∧ (i 0).val < win0_3.index t (0 : Fin 3) * 1 + 1; omega
  | ⟨1, _⟩ => show win0_3.index t (1 : Fin 3) * 1024 ≤ (i 1).val ∧ (i 1).val < win0_3.index t (1 : Fin 3) * 1024 + 1024; omega
  | ⟨2, _⟩ => show win0_3.index t (2 : Fin 3) * 1024 ≤ (i 2).val ∧ (i 2).val < win0_3.index t (2 : Fin 3) * 1024 + 1024; omega

/-- THE RESULT ARRAY after the launch is the projection of the arrays the launch found. -/
theorem final (c : Dev nD) : (dat0 V c).arrAt 3 cfg0.N = target V c :=
  (dat0 V c).arrAt_eq_of_cover 3 (target V c) (fun t _ => flushed_eq V c t) cover

end Cert.KernelIdeal.Region0

end
-- ==== Proof.Region1.lean ====
/-
  The second launch, from blocks to the whole array.

  The launch walks a 4 × 4 grid: point `(b, s)` takes rows `1024·s … 1024·s + 1023` of batch entry `b` of the input
  as its block, always the whole weight matrix and the whole bias row, and writes the same rows of batch entry `b` of
  the result.  What a point writes back is therefore the restriction to its block of ONE function of the arrays the
  launch finds: the projection `Spec.proj`.  The sixteen blocks tile the result array (the point that covers row
  `(b, r)` is `(b, r / 1024)`), so after the launch the result array is that function.
-/
import proofs.«130889_j85753317032126_1_alg».proof.Proof.Gen.KernelIdeal.Frame
import proofs.«130889_j85753317032126_1_alg».proof.Proof.Payload
import proofs.«130889_j85753317032126_1_alg».proof.Proof.Spec

set_option maxRecDepth 16384

noncomputable section

namespace Cert.KernelIdeal.Region1

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The input, the weights and the bias row as the launch finds them. -/
abbrev xarr (c : Dev nD) : Vec Ideal S4x4096x1024 .f32 := V c main_arg1
abbrev warr (c : Dev nD) : Vec Ideal S1024x1024 .f32 := V c main_arg5
abbrev barr (c : Dev nD) : Vec Ideal S1x1024 .f32 := V c main_v2
/-- The three input blocks of point `t`. -/
abbrev xblk (c : Dev nD) (t : Fin cfg1.N) : Vec Ideal S1x1024x1024 .f32 := iblk1 V c 0 t
abbrev wblk (c : Dev nD) (t : Fin cfg1.N) : Vec Ideal S1024x1024 .f32 := iblk1 V c 1 t
abbrev bblk (c : Dev nD) (t : Fin cfg1.N) : Vec Ideal S1x1024 .f32 := iblk1 V c 2 t

/-- What the result array holds after the launch: the projection of the arrays it found. -/
def target (c : Dev nD) : Vec Ideal S4x4096x1024 .f32 :=
  Spec.proj (xarr V c) (warr V c) (fun e => barr V c (ix2 (0 : Fin 1) e))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input block moves with the output block on the batch and row axes and both sit at
    feature block 0; weights and bias stay at block (0, 0); the output's block indices stay below 4. -/
theorem idx_facts : ∀ t : Fin cfg1.N,
    win1_0.index t (0 : Fin 3) = win1_3.index t (0 : Fin 3) ∧ win1_0.index t (1 : Fin 3) = win1_3.index t (1 : Fin 3)
    ∧ win1_0.index t (2 : Fin 3) = 0 ∧ win1_3.index t (2 : Fin 3) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 3) ≤ 3 ∧ win1_3.index t (1 : Fin 3) ≤ 3 :=
  (by decide +kernel : ∀ t : Fin grid1.N, _)

/-- Every (batch, row block) pair is some point's output block. -/
theorem idx_onto : ∀ (q0 : Fin 4) (q1 : Fin 4), ∃ t : Fin cfg1.N, win1_3.index t = ![q0.val, q1.val, 0] :=
  (by decide +kernel : ∀ (q0 : Fin 4) (q1 : Fin 4), ∃ t : Fin grid1.N, win1_3.index t = ![q0.val, q1.val, 0])

/-! ## The input blocks read where the output block sits

An element of a block sits in its array at block index × block extent + the coordinate inside the block, axis by axis.
For the output element `(a, s, e)` of point `t` (array position `E`): row `s` of the input block is row `(E 0, E 1)` of
the input array, the weight block is the weight matrix, and the bias block is the bias row. -/

theorem x_read (c : Dev nD) (t : Fin cfg1.N) (a : Fin 1) (s e k : Fin 1024) :
    xblk V c t (ix3 (0 : Fin 1) s k)
      = xarr V c (ix3 ⟨(((cfg1.win 3).blk t).view.emb (ix3 a s e) 0).val, (((cfg1.win 3).blk t).view.emb (ix3 a s e) 0).isLt⟩
          ⟨(((cfg1.win 3).blk t).view.emb (ix3 a s e) 1).val, (((cfg1.win 3).blk t).view.emb (ix3 a s e) 1).isLt⟩ k) := by
  obtain ⟨e0, e1, e2, e3, -⟩ := idx_facts t
  show V c main_arg1 (((cfg1.win 0).blk t).view.emb (ix3 (0 : Fin 1) s k)) = V c main_arg1 _
  refine congrArg (V c main_arg1) (funext fun ax => Fin.ext ?_)
  match ax with
  | ⟨0, _⟩ => show win1_0.index t (0 : Fin 3) * 1 + 1 * (0 : Nat) = win1_3.index t (0 : Fin 3) * 1 + 1 * a.val; have ha : a.val < 1 := a.isLt; omega
  | ⟨1, _⟩ => show win1_0.index t (1 : Fin 3) * 1024 + 1 * s.val = win1_3.index t (1 : Fin 3) * 1024 + 1 * s.val; omega
  | ⟨2, _⟩ => show win1_0.index t (2 : Fin 3) * 1024 + 1 * k.val = k.val; omega

theorem w_read (c : Dev nD) (t : Fin cfg1.N) (a : Fin 1) (s e k : Fin 1024) :
    wblk V c t (ix2 k e)
      = warr V c (ix2 k ⟨(((cfg1.win 3).blk t).view.emb (ix3 a s e) 2).val, (((cfg1.win 3).blk t).view.emb (ix3 a s e) 2).isLt⟩) := by
  obtain ⟨e0, e1, e2, e3, e4, e5, -⟩ := idx_facts t
  show V c main_arg5 (((cfg1.win 1).blk t).view.emb (ix2 k e)) = V c main_arg5 _
  refine congrArg (V c main_arg5) (funext fun ax => Fin.ext ?_)
  match ax with
  | ⟨0, _⟩ => show win1_1.index t (0 : Fin 2) * 1024 + 1 * k.val = k.val; omega
  | ⟨1, _⟩ => show win1_1.index t (1 : Fin 2) * 1024 + 1 * e.val = win1_3.index t (2 : Fin 3) * 1024 + 1 * e.val; omega

theorem b_read (c : Dev nD) (t : Fin cfg1.N) (a : Fin 1) (s e : Fin 1024) :
    bblk V c t (ix2 (0 : Fin 1) e)
      = barr V c (ix2 (0 : Fin 1) ⟨(((cfg1.win 3).blk t).view.emb (ix3 a s e) 2).val, (((cfg1.win 3).blk t).view.emb (ix3 a s e) 2).isLt⟩) := by
  obtain ⟨e0, e1, e2, e3, e4, e5, e6, e7, -⟩ := idx_facts t
  show V c main_v2 (((cfg1.win 2).blk t).view.emb (ix2 (0 : Fin 1) e)) = V c main_v2 _
  refine congrArg (V c main_v2) (funext fun ax => Fin.ext ?_)
  match ax with
  | ⟨0, _⟩ => show win1_2.index t (0 : Fin 2) * 1 + 1 * (0 : Nat) = 0; omega
  | ⟨1, _⟩ => show win1_2.index t (1 : Fin 2) * 1024 + 1 * e.val = win1_3.index t (2 : Fin 3) * 1024 + 1 * e.val; omega

/-- WHAT POINT `t` WRITES BACK is block `t` of the projection. -/
theorem flushed_eq (c : Dev nD) (t : Fin cfg1.N) :
    (dat1 V c).flushed 3 t = ((cfg1.win 3).blk t).view.read (Elt Ideal) (target V c) := by
  show (cfg1.win 3).cut (grid1.coords t) ((dat1 V c).after 3 t) = _
  rw [after1_3]
  unfold out1_3
  rw [View.canon_unit_zero hz3]
  simp only [View.ld_unit_zero (S := S1x1024x1024) hz3, View.ld_unit_zero (S := S1024x1024) hz2, View.ld_unit_zero (S := S1x1024) hz2]
  funext j
  obtain ⟨a, s, e, rfl⟩ : ∃ (a : Fin 1) (s e : Fin 1024), j = ix3 a s e := ⟨j 0, j 1, j 2, eq_ix3 j⟩
  show k1_pay1 (F := Ideal) (xblk V c t) (wblk V c t) (bblk V c t) (ix3 a s e) = target V c (((cfg1.win 3).blk t).view.emb (ix3 a s e))
  refine (Body.pay1_at (xblk V c t) (wblk V c t) (bblk V c t) a s e).trans ?_
  unfold target Spec.proj
  exact congrArg₂ (· + ·) (Finset.sum_congr rfl fun k _ => congrArg₂ (· * ·) (x_read V c t a s e k) (w_read V c t a s e k))
    (b_read V c t a s e)

/-! ## The blocks tile the result array -/

/-- An index of the result array is in point `t`'s block iff each coordinate is in the block's range on its axis. -/
theorem mem_blk (t : Fin cfg1.N) (i : S4x4096x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v3).slice (win1_3.rect t)).set ↔ _
  rw [View.set_slice_whole, Rect.mem_set_unit]
  exact Iff.rfl

/-- Row `(b, r)` of the result is written by the point whose block is `(b, r / 1024)`. -/
theorem cover (i : S4x4096x1024.Idx) : ∃ t : Fin cfg1.N, (cfg1.win 3).flush t = true ∧ i ∈ ((cfg1.win 3).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win1_3.index t (0 : Fin 3) = (i 0).val := congrFun ht 0
  have q1 : win1_3.index t (1 : Fin 3) = (i 1).val / 1024 := congrFun ht 1
  have q2 : win1_3.index t (2 : Fin 3) = 0 := congrFun ht 2
  refine ⟨t, flush1_3 t, ?_⟩
  rw [mem_blk]
  intro a
  match a with
  | ⟨0, _⟩ => show win1_3.index t (0 : Fin 3) * 1 ≤ (i 0).val ∧ (i 0).val < win1_3.index t (0 : Fin 3) * 1 + 1; omega
  | ⟨1, _⟩ => show win1_3.index t (1 : Fin 3) * 1024 ≤ (i 1).val ∧ (i 1).val < win1_3.index t (1 : Fin 3) * 1024 + 1024; omega
  | ⟨2, _⟩ => show win1_3.index t (2 : Fin 3) * 1024 ≤ (i 2).val ∧ (i 2).val < win1_3.index t (2 : Fin 3) * 1024 + 1024; omega

/-- THE RESULT ARRAY after the launch is the projection of the arrays the launch found. -/
theorem final (c : Dev nD) : (dat1 V c).arrAt 3 cfg1.N = target V c :=
  (dat1 V c).arrAt_eq_of_cover 3 (target V c) (fun t _ => flushed_eq V c t) cover

end Cert.KernelIdeal.Region1

end
-- ==== Proof.Region2.lean ====
/-
  The third launch, from blocks to the whole array.

  The launch walks a 4 × 4 grid: point `(b, s)` takes rows `1024·s … 1024·s + 1023` of batch entry `b` of the input
  as its block, always the whole weight matrix and the whole bias row, and writes the same rows of batch entry `b` of
  the result.  What a point writes back is therefore the restriction to its block of ONE function of the arrays the
  launch finds: the projection `Spec.proj`.  The sixteen blocks tile the result array (the point that covers row
  `(b, r)` is `(b, r / 1024)`), so after the launch the result array is that function.
-/
import proofs.«130889_j85753317032126_1_alg».proof.Proof.Gen.KernelIdeal.Frame
import proofs.«130889_j85753317032126_1_alg».proof.Proof.Payload
import proofs.«130889_j85753317032126_1_alg».proof.Proof.Spec

set_option maxRecDepth 16384

noncomputable section

namespace Cert.KernelIdeal.Region2

open Cert.KernelIdeal Cert.KernelIdeal.Gen Idealize.ShloMosaic Idealize.ShloMosaic.TcCoe Idealize.ShloMosaic.ValueIdx
open Idealize.SL Idealize.SL.Sem
open Idealize.ShloMosaic.Pipeline (Dat Cfg Window)

variable (V : (c : Dev nD) → (b : Ref sig .tc) → Buf (Elt Ideal) ((c : Thread nD τ).loc b))

/-- The input, the weights and the bias row as the launch finds them. -/
abbrev xarr (c : Dev nD) : Vec Ideal S4x4096x1024 .f32 := V c main_arg2
abbrev warr (c : Dev nD) : Vec Ideal S1024x1024 .f32 := V c main_arg7
abbrev barr (c : Dev nD) : Vec Ideal S1x1024 .f32 := V c main_v4
/-- The three input blocks of point `t`. -/
abbrev xblk (c : Dev nD) (t : Fin cfg2.N) : Vec Ideal S1x1024x1024 .f32 := iblk2 V c 0 t
abbrev wblk (c : Dev nD) (t : Fin cfg2.N) : Vec Ideal S1024x1024 .f32 := iblk2 V c 1 t
abbrev bblk (c : Dev nD) (t : Fin cfg2.N) : Vec Ideal S1x1024 .f32 := iblk2 V c 2 t

/-- What the result array holds after the launch: the projection of the arrays it found. -/
def target (c : Dev nD) : Vec Ideal S4x4096x1024 .f32 :=
  Spec.proj (xarr V c) (warr V c) (fun e => barr V c (ix2 (0 : Fin 1) e))

theorem hz3 : (![0, 0, 0] : Fin 3 → Nat) = fun _ => 0 := funext fun a => by fin_cases a <;> rfl
theorem hz2 : (![0, 0] : Fin 2 → Nat) = fun _ => 0 := funext fun a => by fin_cases a <;> rfl

/-- The index maps over the grid: the input block moves with the output block on the batch and row axes and both sit at
    feature block 0; weights and bias stay at block (0, 0); the output's block indices stay below 4. -/
theorem idx_facts : ∀ t : Fin cfg2.N,
    win2_0.index t (0 : Fin 3) = win2_3.index t (0 : Fin 3) ∧ win2_0.index t (1 : Fin 3) = win2_3.index t (1 : Fin 3)
    ∧ win2_0.index t (2 : Fin 3) = 0 ∧ win2_3.index t (2 : Fin 3) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 3) ≤ 3 ∧ win2_3.index t (1 : Fin 3) ≤ 3 :=
  (by decide +kernel : ∀ t : Fin grid2.N, _)

/-- Every (batch, row block) pair is some point's output block. -/
theorem idx_onto : ∀ (q0 : Fin 4) (q1 : Fin 4), ∃ t : Fin cfg2.N, win2_3.index t = ![q0.val, q1.val, 0] :=
  (by decide +kernel : ∀ (q0 : Fin 4) (q1 : Fin 4), ∃ t : Fin grid2.N, win2_3.index t = ![q0.val, q1.val, 0])

/-! ## The input blocks read where the output block sits

An element of a block sits in its array at block index × block extent + the coordinate inside the block, axis by axis.
For the output element `(a, s, e)` of point `t` (array position `E`): row `s` of the input block is row `(E 0, E 1)` of
the input array, the weight block is the weight matrix, and the bias block is the bias row. -/

theorem x_read (c : Dev nD) (t : Fin cfg2.N) (a : Fin 1) (s e k : Fin 1024) :
    xblk V c t (ix3 (0 : Fin 1) s k)
      = xarr V c (ix3 ⟨(((cfg2.win 3).blk t).view.emb (ix3 a s e) 0).val, (((cfg2.win 3).blk t).view.emb (ix3 a s e) 0).isLt⟩
          ⟨(((cfg2.win 3).blk t).view.emb (ix3 a s e) 1).val, (((cfg2.win 3).blk t).view.emb (ix3 a s e) 1).isLt⟩ k) := by
  obtain ⟨e0, e1, e2, e3, -⟩ := idx_facts t
  show V c main_arg2 (((cfg2.win 0).blk t).view.emb (ix3 (0 : Fin 1) s k)) = V c main_arg2 _
  refine congrArg (V c main_arg2) (funext fun ax => Fin.ext ?_)
  match ax with
  | ⟨0, _⟩ => show win2_0.index t (0 : Fin 3) * 1 + 1 * (0 : Nat) = win2_3.index t (0 : Fin 3) * 1 + 1 * a.val; have ha : a.val < 1 := a.isLt; omega
  | ⟨1, _⟩ => show win2_0.index t (1 : Fin 3) * 1024 + 1 * s.val = win2_3.index t (1 : Fin 3) * 1024 + 1 * s.val; omega
  | ⟨2, _⟩ => show win2_0.index t (2 : Fin 3) * 1024 + 1 * k.val = k.val; omega

theorem w_read (c : Dev nD) (t : Fin cfg2.N) (a : Fin 1) (s e k : Fin 1024) :
    wblk V c t (ix2 k e)
      = warr V c (ix2 k ⟨(((cfg2.win 3).blk t).view.emb (ix3 a s e) 2).val, (((cfg2.win 3).blk t).view.emb (ix3 a s e) 2).isLt⟩) := by
  obtain ⟨e0, e1, e2, e3, e4, e5, -⟩ := idx_facts t
  show V c main_arg7 (((cfg2.win 1).blk t).view.emb (ix2 k e)) = V c main_arg7 _
  refine congrArg (V c main_arg7) (funext fun ax => Fin.ext ?_)
  match ax with
  | ⟨0, _⟩ => show win2_1.index t (0 : Fin 2) * 1024 + 1 * k.val = k.val; omega
  | ⟨1, _⟩ => show win2_1.index t (1 : Fin 2) * 1024 + 1 * e.val = win2_3.index t (2 : Fin 3) * 1024 + 1 * e.val; omega

theorem b_read (c : Dev nD) (t : Fin cfg2.N) (a : Fin 1) (s e : Fin 1024) :
    bblk V c t (ix2 (0 : Fin 1) e)
      = barr V c (ix2 (0 : Fin 1) ⟨(((cfg2.win 3).blk t).view.emb (ix3 a s e) 2).val, (((cfg2.win 3).blk t).view.emb (ix3 a s e) 2).isLt⟩) := by
  obtain ⟨e0, e1, e2, e3, e4, e5, e6, e7, -⟩ := idx_facts t
  show V c main_v4 (((cfg2.win 2).blk t).view.emb (ix2 (0 : Fin 1) e)) = V c main_v4 _
  refine congrArg (V c main_v4) (funext fun ax => Fin.ext ?_)
  match ax with
  | ⟨0, _⟩ => show win2_2.index t (0 : Fin 2) * 1 + 1 * (0 : Nat) = 0; omega
  | ⟨1, _⟩ => show win2_2.index t (1 : Fin 2) * 1024 + 1 * e.val = win2_3.index t (2 : Fin 3) * 1024 + 1 * e.val; omega

/-- WHAT POINT `t` WRITES BACK is block `t` of the projection. -/
theorem flushed_eq (c : Dev nD) (t : Fin cfg2.N) :
    (dat2 V c).flushed 3 t = ((cfg2.win 3).blk t).view.read (Elt Ideal) (target V c) := by
  show (cfg2.win 3).cut (grid2.coords t) ((dat2 V c).after 3 t) = _
  rw [after2_3]
  unfold out2_3
  rw [View.canon_unit_zero hz3]
  simp only [View.ld_unit_zero (S := S1x1024x1024) hz3, View.ld_unit_zero (S := S1024x1024) hz2, View.ld_unit_zero (S := S1x1024) hz2]
  funext j
  obtain ⟨a, s, e, rfl⟩ : ∃ (a : Fin 1) (s e : Fin 1024), j = ix3 a s e := ⟨j 0, j 1, j 2, eq_ix3 j⟩
  show k2_pay1 (F := Ideal) (xblk V c t) (wblk V c t) (bblk V c t) (ix3 a s e) = target V c (((cfg2.win 3).blk t).view.emb (ix3 a s e))
  refine (Body.pay2_at (xblk V c t) (wblk V c t) (bblk V c t) a s e).trans ?_
  unfold target Spec.proj
  exact congrArg₂ (· + ·) (Finset.sum_congr rfl fun k _ => congrArg₂ (· * ·) (x_read V c t a s e k) (w_read V c t a s e k))
    (b_read V c t a s e)

/-! ## The blocks tile the result array -/

/-- An index of the result array is in point `t`'s block iff each coordinate is in the block's range on its axis. -/
theorem mem_blk (t : Fin cfg2.N) (i : S4x4096x1024.Idx) :
    i ∈ ((cfg2.win 3).blk t).view.set ↔ ∀ a : Fin 3, win2_3.index t a * S1x1024x1024.size a ≤ (i a).val ∧ (i a).val < win2_3.index t a * S1x1024x1024.size a + S1x1024x1024.size a := by
  show i ∈ ((View.whole main_v5).slice (win2_3.rect t)).set ↔ _
  rw [View.set_slice_whole, Rect.mem_set_unit]
  exact Iff.rfl

/-- Row `(b, r)` of the result is written by the point whose block is `(b, r / 1024)`. -/
theorem cover (i : S4x4096x1024.Idx) : ∃ t : Fin cfg2.N, (cfg2.win 3).flush t = true ∧ i ∈ ((cfg2.win 3).blk t).view.set := by
  have hi0 : (i 0).val < 4 := (i 0).isLt
  have hi1 : (i 1).val < 4096 := (i 1).isLt
  have hi2 : (i 2).val < 1024 := (i 2).isLt
  obtain ⟨t, ht⟩ := idx_onto ⟨(i 0).val, hi0⟩ ⟨(i 1).val / 1024, by omega⟩
  have q0 : win2_3.index t (0 : Fin 3) = (i 0).val := congrFun ht 0
  have q1 : win2_3.index t (1 : Fin 3) = (i 1).val / 1024 := congrFun ht 1
  have q2 : win2_3.index t (2 : Fin 3) = 0 := congrFun ht 2
  refine ⟨t, flush2_3 t, ?_⟩
  rw [mem_blk]
  intro a
  match a with
  | ⟨0, _⟩ => show win2_3.index t (0 : Fin 3) * 1 ≤ (i 0).val ∧ (i 0).val < win2_3.index t (0 : Fin 3) * 1 + 1; omega
  | ⟨1, _⟩ => show win2_3.index t (1 : Fin 3) * 1024 ≤ (i 1).val ∧ (i 1).val < win2_3.index t (1 : Fin 3) * 1024 + 1024; omega
  | ⟨2, _⟩ => show win2_3.index t (2 : Fin 3) * 1024 ≤ (i 2).val ∧ (i 2).val < win2_3.index t (2 : Fin 3) * 1024 + 1024; omega

/-- THE RESULT ARRAY after the launch is the projection of the arrays the launch found. -/
theorem final (c : Dev nD) : (dat2 V c).arrAt 3 cfg2.N = target V c :=
  (dat2 V c).arrAt_eq_of_cover 3 (target V c) (fun t _ => flushed_eq V c t) cover

end Cert.KernelIdeal.Region2

end
-- ==== Proof.Fold.lean ====
/-
  The kernel program's three results as functions of its arguments.

  @main is: bias 1 reshaped to a row, launch 1; bias 2 reshaped, launch 2; bias 3 reshaped, launch 3; then each
  launch's result viewed by heads and its sequence and head axes swapped.  Nothing between a launch and its head
  split writes the launch's result, and nothing before a launch writes its input, its weights or its bias, so walking
  back through the segment boundaries each result is the head split of the projection (`Spec.proj`) of the launch
  memory's own input, weights and bias; the reshaped `[1, 1024]` bias row read at `(0, e)` is the bias at `e`.
-/
import proofs.«130889_j85753317032126_1_alg».proof.Proof.Gen.KernelIdeal.Frame
import proofs.«130889_j85753317032126_1_alg».proof.Proof.Region0
import proofs.«130889_j85753317032126_1_alg».proof.Proof.Region1
import proofs.«130889_j85753317032126_1_alg».proof.Proof.Region2
import proofs.«130889_j85753317032126_1_alg».proof.Proof.Spec
import Idealize.ShloMosaic.Lib.StableHlo.Run

set_option maxRecDepth 16384

noncomputable section

namespace Cert.KernelIdeal.Fold

open Cert.KernelIdeal Cert.KernelIdeal.Gen
open Idealize.ShloMosaic Idealize.ShloMosaic.TcCoe Idealize.ShloMosaic.ValueIdx Idealize.ShloMosaic.StableHlo
open Idealize.SL Idealize.SL.Sem

variable (m : (ℓ : Loc nD τ sig) → Buf (Elt Ideal) ℓ) (ρ : Dev nD → PrngReg)

/-- A bias reshaped to a `[1, 1024]` row, read at `(0, e)`, is the bias at `e`. -/
theorem biasRow_at (b : Vec Ideal S1024 .f32) (e : Fin 1024) :
    shapeCast S1x1024 b shapeCasts_S1024_S1x1024 (ix2 (0 : Fin 1) e) = b (ix1 e) :=
  shapeCast_apply b shapeCasts_S1024_S1x1024 (ix2 (0 : Fin 1) e) (ix1 e)
    (by rewrite [Shape.rowMajor_val_one, Shape.rowMajor_val_two]; show e.val = (0 : Nat) * 1024 + e.val; omega)

/-! ## What the first launch finds -/

theorem V1_x (c : Dev nD) : V1 m ρ c main_arg0 = m ((c : Thread nD τ).loc main_arg0) := by
  show StableHlo.after hostOps0 (W0 m ρ c) (Proc.devRef .tc main_arg0) = _
  dsimp only [hostOps0]; after_results; try rfl
theorem V1_w (c : Dev nD) : V1 m ρ c main_arg3 = m ((c : Thread nD τ).loc main_arg3) := by
  show StableHlo.after hostOps0 (W0 m ρ c) (Proc.devRef .tc main_arg3) = _
  dsimp only [hostOps0]; after_results; try rfl
theorem V1_b (c : Dev nD) : V1 m ρ c main_v0 = shapeCast S1x1024 (m ((c : Thread nD τ).loc main_arg4)) shapeCasts_S1024_S1x1024 := by
  show StableHlo.after hostOps0 (W0 m ρ c) (Proc.devRef .tc main_v0) = _
  dsimp only [hostOps0]; after_results; try rfl

/-- The first launch's result array: the projection of the first input, weights and bias. -/
theorem launch1 (c : Dev nD) :
    W2 m ρ c (Proc.devRef .tc main_v1)
      = Spec.proj (m ((c : Thread nD τ).loc main_arg0)) (m ((c : Thread nD τ).loc main_arg3)) (fun e => m ((c : Thread nD τ).loc main_arg4) (ix1 e)) := by
  refine ((W2_arr m ρ c 3).trans (Region0.final (V1 m ρ) c)).trans ?_
  show Spec.proj (V1 m ρ c main_arg0) (V1 m ρ c main_arg3) (fun e => V1 m ρ c main_v0 (ix2 (0 : Fin 1) e)) = _
  rw [V1_x, V1_w, V1_b]
  exact congrArg (Spec.proj _ _) (funext fun e => biasRow_at _ e)

/-! ## What the second launch finds -/

theorem V3_x (c : Dev nD) : V3 m ρ c main_arg1 = m ((c : Thread nD τ).loc main_arg1) := by
  show StableHlo.after hostOps1 (W2 m ρ c) (Proc.devRef .tc main_arg1) = _
  dsimp only [hostOps1]; after_results
  rw [W2_of_ne m ρ c main_arg1 (by decide)]
  show StableHlo.after hostOps0 (W0 m ρ c) (Proc.devRef .tc main_arg1) = _
  dsimp only [hostOps0]; after_results; try rfl
theorem V3_w (c : Dev nD) : V3 m ρ c main_arg5 = m ((c : Thread nD τ).loc main_arg5) := by
  show StableHlo.after hostOps1 (W2 m ρ c) (Proc.devRef .tc main_arg5) = _
  dsimp only [hostOps1]; after_results
  rw [W2_of_ne m ρ c main_arg5 (by decide)]
  show StableHlo.after hostOps0 (W0 m ρ c) (Proc.devRef .tc main_arg5) = _
  dsimp only [hostOps0]; after_results; try rfl
theorem V3_b (c : Dev nD) : V3 m ρ c main_v2 = shapeCast S1x1024 (m ((c : Thread nD τ).loc main_arg6)) shapeCasts_S1024_S1x1024 := by
  show StableHlo.after hostOps1 (W2 m ρ c) (Proc.devRef .tc main_v2) = _
  dsimp only [hostOps1]; after_results
  rw [W2_of_ne m ρ c main_arg6 (by decide)]
  show shapeCast S1x1024 (StableHlo.after hostOps0 (W0 m ρ c) (Proc.devRef .tc main_arg6)) shapeCasts_S1024_S1x1024 = _
  dsimp only [hostOps0]; after_results; try rfl

/-- The second launch's result array: the projection of the second input, weights and bias. -/
theorem launch2 (c : Dev nD) :
    W4 m ρ c (Proc.devRef .tc main_v3)
      = Spec.proj (m ((c : Thread nD τ).loc main_arg1)) (m ((c : Thread nD τ).loc main_arg5)) (fun e => m ((c : Thread nD τ).loc main_arg6) (ix1 e)) := by
  refine ((W4_arr m ρ c 3).trans (Region1.final (V3 m ρ) c)).trans ?_
  show Spec.proj (V3 m ρ c main_arg1) (V3 m ρ c main_arg5) (fun e => V3 m ρ c main_v2 (ix2 (0 : Fin 1) e)) = _
  rw [V3_x, V3_w, V3_b]
  exact congrArg (Spec.proj _ _) (funext fun e => biasRow_at _ e)

/-! ## What the third launch finds -/

theorem V5_x (c : Dev nD) : V5 m ρ c main_arg2 = m ((c : Thread nD τ).loc main_arg2) := by
  show StableHlo.after hostOps2 (W4 m ρ c) (Proc.devRef .tc main_arg2) = _
  dsimp only [hostOps2]; after_results
  rw [W4_of_ne m ρ c main_arg2 (by decide)]
  show StableHlo.after hostOps1 (W2 m ρ c) (Proc.devRef .tc main_arg2) = _
  dsimp only [hostOps1]; after_results
  rw [W2_of_ne m ρ c main_arg2 (by decide)]
  show StableHlo.after hostOps0 (W0 m ρ c) (Proc.devRef .tc main_arg2) = _
  dsimp only [hostOps0]; after_results; try rfl
theorem V5_w (c : Dev nD) : V5 m ρ c main_arg7 = m ((c : Thread nD τ).loc main_arg7) := by
  show StableHlo.after hostOps2 (W4 m ρ c) (Proc.devRef .tc main_arg7) = _
  dsimp only [hostOps2]; after_results
  rw [W4_of_ne m ρ c main_arg7 (by decide)]
  show StableHlo.after hostOps1 (W2 m ρ c) (Proc.devRef .tc main_arg7) = _
  dsimp only [hostOps1]; after_results
  rw [W2_of_ne m ρ c main_arg7 (by decide)]
  show StableHlo.after hostOps0 (W0 m ρ c) (Proc.devRef .tc main_arg7) = _
  dsimp only [hostOps0]; after_results; try rfl
theorem V5_b (c : Dev nD) : V5 m ρ c main_v4 = shapeCast S1x1024 (m ((c : Thread nD τ).loc main_arg8)) shapeCasts_S1024_S1x1024 := by
  show StableHlo.after hostOps2 (W4 m ρ c) (Proc.devRef .tc main_v4) = _
  dsimp only [hostOps2]; after_results
  rw [W4_of_ne m ρ c main_arg8 (by decide)]
  show shapeCast S1x1024 (StableHlo.after hostOps1 (W2 m ρ c) (Proc.devRef .tc main_arg8)) shapeCasts_S1024_S1x1024 = _
  dsimp only [hostOps1]; after_results
  rw [W2_of_ne m ρ c main_arg8 (by decide)]
  show shapeCast S1x1024 (StableHlo.after hostOps0 (W0 m ρ c) (Proc.devRef .tc main_arg8)) shapeCasts_S1024_S1x1024 = _
  dsimp only [hostOps0]; after_results; try rfl

/-- The third launch's result array: the projection of the third input, weights and bias. -/
theorem launch3 (c : Dev nD) :
    W6 m ρ c (Proc.devRef .tc main_v5)
      = Spec.proj (m ((c : Thread nD τ).loc main_arg2)) (m ((c : Thread nD τ).loc main_arg7)) (fun e => m ((c : Thread nD τ).loc main_arg8) (ix1 e)) := by
  refine ((W6_arr m ρ c 3).trans (Region2.final (V5 m ρ) c)).trans ?_
  show Spec.proj (V5 m ρ c main_arg2) (V5 m ρ c main_arg7) (fun e => V5 m ρ c main_v4 (ix2 (0 : Fin 1) e)) = _
  rw [V5_x, V5_w, V5_b]
  exact congrArg (Spec.proj _ _) (funext fun e => biasRow_at _ e)

/-! ## The launches' results are still there when the head splits read them -/

theorem W6_v1 (c : Dev nD) : W6 m ρ c (Proc.devRef .tc main_v1) = W2 m ρ c (Proc.devRef .tc main_v1) := by
  rw [W6_of_ne m ρ c main_v1 (by decide)]
  show StableHlo.after hostOps2 (W4 m ρ c) (Proc.devRef .tc main_v1) = _
  dsimp only [hostOps2]; after_results
  rw [W4_of_ne m ρ c main_v1 (by decide)]
  show StableHlo.after hostOps1 (W2 m ρ c) (Proc.devRef .tc main_v1) = _
  dsimp only [hostOps1]; after_results
theorem W6_v3 (c : Dev nD) : W6 m ρ c (Proc.devRef .tc main_v3) = W4 m ρ c (Proc.devRef .tc main_v3) := by
  rw [W6_of_ne m ρ c main_v3 (by decide)]
  show StableHlo.after hostOps2 (W4 m ρ c) (Proc.devRef .tc main_v3) = _
  dsimp only [hostOps2]; after_results

/-! ## The three results -/

theorem result1 (c : Dev nD) :
    W7 m ρ c (Proc.devRef .tc main_v7)
      = Spec.heads shapeCasts_S4x4096x1024_S4x4096x16x64 transposes_S4x4096x16x64_S4x16x4096x64_0_2_1_3
          (Spec.proj (m ((c : Thread nD τ).loc main_arg0)) (m ((c : Thread nD τ).loc main_arg3)) (fun e => m ((c : Thread nD τ).loc main_arg4) (ix1 e))) := by
  rw [← launch1 m ρ c, ← W6_v1 m ρ c]
  show StableHlo.after hostOps3 (W6 m ρ c) (Proc.devRef .tc main_v7) = _
  dsimp only [hostOps3]; after_results; try rfl
theorem result2 (c : Dev nD) :
    W7 m ρ c (Proc.devRef .tc main_v9)
      = Spec.heads shapeCasts_S4x4096x1024_S4x4096x16x64 transposes_S4x4096x16x64_S4x16x4096x64_0_2_1_3
          (Spec.proj (m ((c : Thread nD τ).loc main_arg1)) (m ((c : Thread nD τ).loc main_arg5)) (fun e => m ((c : Thread nD τ).loc main_arg6) (ix1 e))) := by
  rw [← launch2 m ρ c, ← W6_v3 m ρ c]
  show StableHlo.after hostOps3 (W6 m ρ c) (Proc.devRef .tc main_v9) = _
  dsimp only [hostOps3]; after_results; try rfl
theorem result3 (c : Dev nD) :
    W7 m ρ c (Proc.devRef .tc main_v11)
      = Spec.heads shapeCasts_S4x4096x1024_S4x4096x16x64 transposes_S4x4096x16x64_S4x16x4096x64_0_2_1_3
          (Spec.proj (m ((c : Thread nD τ).loc main_arg2)) (m ((c : Thread nD τ).loc main_arg7)) (fun e => m ((c : Thread nD τ).loc main_arg8) (ix1 e))) := by
  rw [← launch3 m ρ c]
  show StableHlo.after hostOps3 (W6 m ρ c) (Proc.devRef .tc main_v11) = _
  dsimp only [hostOps3]; after_results; try rfl

end Cert.KernelIdeal.Fold

end
-- ==== Proof.RefValue.lean ====
/-
  The reference's three results as functions of its arguments.

  Each result of the reference is `einsum('bsd,de->bse', x, W) + b` viewed by heads and transposed.  Over the extended
  reals the host's contraction is the plain sum over the shared axis, and the bias broadcast twice (first to
  `[1, 1, 1024]`, then over batch and sequence) reads at `(b, s, e)` the bias at `e`: the biased product is the
  projection `Spec.proj`, and the result is its head split.  The three results are the same stages of different
  arguments.
-/
import proofs.«130889_j85753317032126_1_alg».proof.Proof.Gen.ReferenceIdeal.Read
import proofs.«130889_j85753317032126_1_alg».proof.Proof.Spec

noncomputable section

namespace Cert.ReferenceIdeal.RefValue

open Cert.ReferenceIdeal Cert.ReferenceIdeal.Gen Cert.ReferenceIdeal.Read
open Idealize.ShloMosaic Idealize.ShloMosaic.ValueIdx

/-- The biased product, index by index, is the projection. -/
theorem biased_eq (x : (⟨S4x4096x1024, .f32⟩ : BufTy).Contents (Elt Ideal)) (w : (⟨S1024x1024, .f32⟩ : BufTy).Contents (Elt Ideal))
    (b : (⟨S1024, .f32⟩ : BufTy).Contents (Elt Ideal)) :
    val_main_v3 (F := Ideal) x w b = Spec.proj x w (fun e => b (ix1 e)) := by
  funext i
  rw [val_main_v3_apply, val_main_v0_apply, val_main_v2_apply, val_main_v1_apply]
  have hl : ∀ k : Fin 1024, lidx_main_v0 i k = ix3 ⟨(i 0).val, (i 0).isLt⟩ ⟨(i 1).val, (i 1).isLt⟩ k := fun k =>
    funext fun a => Fin.ext (by match a with | ⟨0, _⟩ => rfl | ⟨1, _⟩ => rfl | ⟨2, _⟩ => rfl)
  have hr : ∀ k : Fin 1024, ridx_main_v0 i k = ix2 k ⟨(i 2).val, (i 2).isLt⟩ := fun k =>
    funext fun a => Fin.ext (by match a with | ⟨0, _⟩ => rfl | ⟨1, _⟩ => rfl)
  have hb : idx_main_v1 (idx_main_v2 i) = ix1 ⟨(i 2).val, (i 2).isLt⟩ :=
    funext fun a => Fin.ext (by match a with | ⟨0, _⟩ => rfl)
  show (∑ k : Fin 1024, x (lidx_main_v0 i k) * w (ridx_main_v0 i k)) + b (idx_main_v1 (idx_main_v2 i)) = _
  rw [hb, Finset.sum_congr rfl fun k _ => by rw [hl k, hr k]]
  rfl

/-- The first result is the head split of the projection of the first input, weights and bias. -/
theorem result1_eq (x : (⟨S4x4096x1024, .f32⟩ : BufTy).Contents (Elt Ideal)) (w : (⟨S1024x1024, .f32⟩ : BufTy).Contents (Elt Ideal))
    (b : (⟨S1024, .f32⟩ : BufTy).Contents (Elt Ideal)) :
    val_main_v5 (F := Ideal) x w b
      = Spec.heads shapeCasts_S4x4096x1024_S4x4096x16x64 transposes_S4x4096x16x64_S4x16x4096x64_0_2_1_3 (Spec.proj x w (fun e => b (ix1 e))) := by
  rw [← biased_eq]; rfl

/-- The second and third results are the same stages of the other arguments. -/
theorem result2_eq (x : (⟨S4x4096x1024, .f32⟩ : BufTy).Contents (Elt Ideal)) (w : (⟨S1024x1024, .f32⟩ : BufTy).Contents (Elt Ideal))
    (b : (⟨S1024, .f32⟩ : BufTy).Contents (Elt Ideal)) :
    val_main_v11 (F := Ideal) x w b
      = Spec.heads shapeCasts_S4x4096x1024_S4x4096x16x64 transposes_S4x4096x16x64_S4x16x4096x64_0_2_1_3 (Spec.proj x w (fun e => b (ix1 e))) :=
  result1_eq x w b
theorem result3_eq (x : (⟨S4x4096x1024, .f32⟩ : BufTy).Contents (Elt Ideal)) (w : (⟨S1024x1024, .f32⟩ : BufTy).Contents (Elt Ideal))
    (b : (⟨S1024, .f32⟩ : BufTy).Contents (Elt Ideal)) :
    val_main_v17 (F := Ideal) x w b
      = Spec.heads shapeCasts_S4x4096x1024_S4x4096x16x64 transposes_S4x4096x16x64_S4x16x4096x64_0_2_1_3 (Spec.proj x w (fun e => b (ix1 e))) :=
  result1_eq x w b

end Cert.ReferenceIdeal.RefValue

end
-- ==== Proof.lean ====
/-
  Three linear projections with the heads split, kernel against reference, over the extended reals.

  The kernel program runs ONE Pallas body three times (queries, keys, values): on a 4 × 4 grid of
  (batch entry, block of 1024 sequence rows) it multiplies the block's rows by the whole 1024 × 1024 weight matrix on
  the matrix unit (operands narrowed to bf16, accumulated in f32 from zero) and adds the bias row; @main then views each
  `[4, 4096, 1024]` result as `[4, 4096, 16, 64]` and swaps the sequence and head axes.  The reference computes
  `einsum('bsd,de->bse', x, W) + b` and the same view and swap.

  Over the extended reals narrowing a float is the identity, the zero accumulator adds nothing and both contractions are
  the sum over the shared axis in one order, so each side's biased product is the same function of the arguments,
      y[b, s, e] = (∑ k, x[b, s, k] · W[k, e]) + bias[e]          (`Spec.proj`),
  and the results are its head split (`Spec.heads`), a function both programs apply and the proof never opens.  No
  algebraic law that would need finite inputs is used: the precondition is not opened.

  Kernel side: what one body run stores (Payload), each launch's blocks assembled into its result array (Region0–2),
  the run of @main with every buffer's final contents named (KernelRun) and those contents walked back to the arguments
  (Fold).  Reference side: its run read one operation at a time (RefValue).  The kernel's idealization rewrote nothing,
  so `preserves` is trivial; the three frames are the runs with the results dropped.
-/
import proofs.«130889_j85753317032126_1_alg».proof.Defs
import proofs.«130889_j85753317032126_1_alg».proof.Proof.Gen.Kernel
import proofs.«130889_j85753317032126_1_alg».proof.Proof.Gen.Kernel.Skeleton
import proofs.«130889_j85753317032126_1_alg».proof.Proof.Gen.Kernel.Launch
import proofs.«130889_j85753317032126_1_alg».proof.Proof.Gen.Kernel.Points
import proofs.«130889_j85753317032126_1_alg».proof.Proof.Gen.Kernel.Frame
import proofs.«130889_j85753317032126_1_alg».proof.Proof.Gen.KernelIdeal
import proofs.«130889_j85753317032126_1_alg».proof.Proof.Gen.KernelIdeal.Skeleton
import proofs.«130889_j85753317032126_1_alg».proof.Proof.Gen.KernelIdeal.Launch
import proofs.«130889_j85753317032126_1_alg».proof.Proof.Gen.KernelIdeal.Points
import proofs.«130889_j85753317032126_1_alg».proof.Proof.Gen.KernelIdeal.Frame
import proofs.«130889_j85753317032126_1_alg».proof.Proof.Gen.ReferenceIdeal
import proofs.«130889_j85753317032126_1_alg».proof.Proof.Gen.Pre_finite_inputs
import proofs.«130889_j85753317032126_1_alg».proof.Proof.Gen.ReferenceIdeal.Run
import proofs.«130889_j85753317032126_1_alg».proof.Proof.Gen.ReferenceIdeal.Read
import proofs.«130889_j85753317032126_1_alg».proof.Proof.KernelRun
import proofs.«130889_j85753317032126_1_alg».proof.Proof.Fold
import proofs.«130889_j85753317032126_1_alg».proof.Proof.RefValue
import Idealize.ShloMosaic.Adequacy
import Idealize.ShloMosaic.Init

noncomputable section

namespace Cert.Proof

open Idealize.ShloMosaic Idealize.ShloMosaic.TcCoe Idealize.SL.Sem

theorem frame_k : Cert.frame_Kernel := fun m ρ _ => Cert.Kernel.Gen.frame m ρ
theorem frame_ki : Cert.frame_KernelIdeal := fun m ρ _ => Cert.KernelIdeal.Gen.frame m ρ
/-- The reference's frame is its run with the three results dropped. -/
theorem frame_ri : Cert.frame_ReferenceIdeal := fun m ρ _ =>
  (θ_run Cert.ReferenceIdeal.defs _ _).mono (fun _ h c => (h c).2.2.2) (Cert.ReferenceIdeal.Value.run (F := Ideal) m ρ)

/-- Both programs end with each result at the head split of the projection of its input, weights and bias: the
    kernel program by the fold through its launches, the reference by its run read back, from arguments that agree. -/
theorem algebraic : Cert.algebraic_KernelIdeal_ReferenceIdeal := by
  intro m ρ m' ρ' _ hagree
  refine ⟨fun c => Cert.Spec.heads Cert.KernelIdeal.Gen.shapeCasts_S4x4096x1024_S4x4096x16x64 Cert.KernelIdeal.Gen.transposes_S4x4096x16x64_S4x16x4096x64_0_2_1_3
      (Cert.Spec.proj (m ((c.tc : Thread Cert.KernelIdeal.nD Cert.KernelIdeal.τ).loc Cert.KernelIdeal.main_arg0)) (m ((c.tc : Thread Cert.KernelIdeal.nD Cert.KernelIdeal.τ).loc Cert.KernelIdeal.main_arg3)) (fun e => m ((c.tc : Thread Cert.KernelIdeal.nD Cert.KernelIdeal.τ).loc Cert.KernelIdeal.main_arg4) (ValueIdx.ix1 e))),
    fun c => Cert.Spec.heads Cert.KernelIdeal.Gen.shapeCasts_S4x4096x1024_S4x4096x16x64 Cert.KernelIdeal.Gen.transposes_S4x4096x16x64_S4x16x4096x64_0_2_1_3
      (Cert.Spec.proj (m ((c.tc : Thread Cert.KernelIdeal.nD Cert.KernelIdeal.τ).loc Cert.KernelIdeal.main_arg1)) (m ((c.tc : Thread Cert.KernelIdeal.nD Cert.KernelIdeal.τ).loc Cert.KernelIdeal.main_arg5)) (fun e => m ((c.tc : Thread Cert.KernelIdeal.nD Cert.KernelIdeal.τ).loc Cert.KernelIdeal.main_arg6) (ValueIdx.ix1 e))),
    fun c => Cert.Spec.heads Cert.KernelIdeal.Gen.shapeCasts_S4x4096x1024_S4x4096x16x64 Cert.KernelIdeal.Gen.transposes_S4x4096x16x64_S4x16x4096x64_0_2_1_3
      (Cert.Spec.proj (m ((c.tc : Thread Cert.KernelIdeal.nD Cert.KernelIdeal.τ).loc Cert.KernelIdeal.main_arg2)) (m ((c.tc : Thread Cert.KernelIdeal.nD Cert.KernelIdeal.τ).loc Cert.KernelIdeal.main_arg7)) (fun e => m ((c.tc : Thread Cert.KernelIdeal.nD Cert.KernelIdeal.τ).loc Cert.KernelIdeal.main_arg8) (ValueIdx.ix1 e))), ?_, ?_⟩
  · refine (θ_run Cert.KernelIdeal.defs _ _).mono (fun r h c => ?_) (Cert.KernelIdeal.GenRun.run_uc m ρ)
    exact ⟨(h c _ (Cert.KernelIdeal.Gen.mem_uc Cert.KernelIdeal.main_v7 (by decide))).trans (Cert.KernelIdeal.Fold.result1 m ρ c),
      (h c _ (Cert.KernelIdeal.Gen.mem_uc Cert.KernelIdeal.main_v9 (by decide))).trans (Cert.KernelIdeal.Fold.result2 m ρ c),
      (h c _ (Cert.KernelIdeal.Gen.mem_uc Cert.KernelIdeal.main_v11 (by decide))).trans (Cert.KernelIdeal.Fold.result3 m ρ c),
      (h c _ (Cert.KernelIdeal.Gen.mem_uc Cert.KernelIdeal.main_arg0 (by decide))).trans (Cert.KernelIdeal.Gen.W7_main_arg0 m ρ c),
      (h c _ (Cert.KernelIdeal.Gen.mem_uc Cert.KernelIdeal.main_arg1 (by decide))).trans (Cert.KernelIdeal.Gen.W7_main_arg1 m ρ c),
      (h c _ (Cert.KernelIdeal.Gen.mem_uc Cert.KernelIdeal.main_arg2 (by decide))).trans (Cert.KernelIdeal.Gen.W7_main_arg2 m ρ c),
      (h c _ (Cert.KernelIdeal.Gen.mem_uc Cert.KernelIdeal.main_arg3 (by decide))).trans (Cert.KernelIdeal.Gen.W7_main_arg3 m ρ c),
      (h c _ (Cert.KernelIdeal.Gen.mem_uc Cert.KernelIdeal.main_arg4 (by decide))).trans (Cert.KernelIdeal.Gen.W7_main_arg4 m ρ c),
      (h c _ (Cert.KernelIdeal.Gen.mem_uc Cert.KernelIdeal.main_arg5 (by decide))).trans (Cert.KernelIdeal.Gen.W7_main_arg5 m ρ c),
      (h c _ (Cert.KernelIdeal.Gen.mem_uc Cert.KernelIdeal.main_arg6 (by decide))).trans (Cert.KernelIdeal.Gen.W7_main_arg6 m ρ c),
      (h c _ (Cert.KernelIdeal.Gen.mem_uc Cert.KernelIdeal.main_arg7 (by decide))).trans (Cert.KernelIdeal.Gen.W7_main_arg7 m ρ c),
      (h c _ (Cert.KernelIdeal.Gen.mem_uc Cert.KernelIdeal.main_arg8 (by decide))).trans (Cert.KernelIdeal.Gen.W7_main_arg8 m ρ c)⟩
  · refine (θ_run Cert.ReferenceIdeal.defs _ _).mono (fun r h c => ?_) (Cert.ReferenceIdeal.Value.run (F := Ideal) m' ρ')
    obtain ⟨h5, h11, h17, hargs⟩ := h c
    obtain ⟨a0, a1, a2, a3, a4, a5, a6, a7, a8⟩ := hagree c
    refine ⟨h5.trans ?_, h11.trans ?_, h17.trans ?_, hargs⟩
    · rw [Cert.ReferenceIdeal.Read.val_main_v5_eq, Cert.ReferenceIdeal.RefValue.result1_eq, a0, a3, a4]
    · rw [Cert.ReferenceIdeal.Read.val_main_v11_eq, Cert.ReferenceIdeal.RefValue.result2_eq, a1, a5, a6]
    · rw [Cert.ReferenceIdeal.Read.val_main_v17_eq, Cert.ReferenceIdeal.RefValue.result3_eq, a2, a7, a8]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
